-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S5000x128 : Shape := ⟨2, ![5000, 128]⟩

abbrev nBuf : Space → Nat
  | .hbm => 46
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S1x128, .f32⟩
  | .hbm, ⟨28, _⟩ => ⟨S1x128, .f32⟩
  | .hbm, ⟨29, _⟩ => ⟨S50000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S_, .f32⟩
  | .hbm, ⟨40, _⟩ => ⟨S50000x128, .f32⟩
  | .hbm, ⟨41, _⟩ => ⟨S600000x1, .i32⟩
  | .hbm, ⟨42, _⟩ => ⟨S50000x128, .f32⟩
  | .hbm, ⟨43, _⟩ => ⟨S1x128, .f32⟩
  | .hbm, ⟨44, _⟩ => ⟨S1x128, .f32⟩
  | .hbm, ⟨45, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S50000x128, .f32⟩
  | .hbm, ⟨41, _⟩ => ⟨S50000x128, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x128, .f32⟩
  | .hbm, ⟨51, _⟩ => ⟨S_, .f32⟩
  | .hbm, ⟨52, _⟩ => ⟨S50000x128, .f32⟩
  | .hbm, ⟨53, _⟩ => ⟨S600000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call2_cst : Ref sig .tc := ⟨.hbm, 60, rfl⟩
abbrev main_call2_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The two-layer graph network as ONE function of the ten argument arrays.

  Nodes carry rows of 128 numbers; an edge e goes from node src e to node dst e. For a node array h, the neighbour
  sum nbr h has at node v the sum of the rows h (src e) over the edges e with dst e = v (a negative src counted from
  the end; the gather clamps, the accumulating scatter drops what falls outside). A dense layer sends a row z to
  z W + b, a rectified one to max (z W + b, 0). With z₁ = x + nbr x and h = relu (relu (z₁ W1a + b1a) W1b + b1b), the
  result is relu ((h + nbr h) W2a + b2a) W2b + b2b.

  The definitions below spell this in the host operations' own vocabulary, so that the reference's composed term is
  this function by unfolding alone. The bias enters a layer as a 1 x 128 row (linRow, hidRow); lin and hid first make
  that row from the bias vector.
-/
import proofs.«168536_j54065048323041_1_alg».proof.ReferenceIdeal
import proofs.«168536_j54065048323041_1_alg».proof.Proof.Gen.ReferenceIdeal
import proofs.«168536_j54065048323041_1_alg».proof.Proof.Gen.ReferenceIdeal.Run
import Idealize.ShloMosaic.PureOps.Ideal

noncomputable section

namespace Cert.Gin

open Cert.ReferenceIdeal Cert.ReferenceIdeal.Gen Idealize.ShloMosaic Idealize.ShloMosaic.TcCoe Idealize.SL.Sem

/-- Node features, [50000, 128]. -/
abbrev Nodes := FVec Ideal S50000x128 .f32
/-- The edge list, [2, 600000]: row 0 the sources, row 1 the destinations. -/
abbrev Edges := IVec S2x600000 32
/-- One index per edge, [600000]. -/
abbrev EdgeIdx := IVec S600000 32
/-- A weight matrix, [128, 128]. -/
abbrev Mat := FVec Ideal S128x128 .f32
/-- A bias vector, [128]. -/
abbrev Bias := FVec Ideal S128 .f32
/-- A bias as a 1 x 128 row. -/
abbrev BiasRow := FVec Ideal S1x128 .f32

/-- The sources: row 0 of the edge list. -/
def src (ei : Edges) : EdgeIdx :=
  shapeCast S600000 (extractStridedSlice S1x600000 ![0, 0] ei slices_S2x600000_S1x600000_0_0) shapeCasts_S1x600000_S600000

/-- The destinations: row 1 of the edge list. -/
def dst (ei : Edges) : EdgeIdx :=
  shapeCast S600000 (extractStridedSlice S1x600000 ![1, 0] ei slices_S2x600000_S1x600000_1_0) shapeCasts_S1x600000_S600000

/-- The neighbour sum over edges given as two index vectors: gather the source rows (a negative source counted from
    the end), add each into its destination row of a zero array. -/
def nbrOf (h : Nodes) (s d : EdgeIdx) : Nodes :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 d)
    (Host.gather gather_S50000x128_S600000x1_S600000x128_1_0_n_n_0_1_1128 h
      (broadcastInDim S600000x1 ![0] bcast_S600000_S600000x1_0
        (select (cmpi .slt s (broadcastInDim S600000 ![] bcast_S_S600000 (constantI S_ 32 0#32)))
          (addi s (broadcastInDim S600000 ![] bcast_S_S600000 (constantI S_ 32 50000#32))) s)))

/-- The neighbour sum of a node array over the edge list. -/
def nbr (h : Nodes) (ei : Edges) : Nodes := nbrOf h (src ei) (dst ei)

/-- A dense layer with its bias given as a row: z W + b. -/
def linRow (z : Nodes) (W : Mat) (b : BiasRow) : Nodes :=
  addf (Host.dotGeneral dot_S50000x128_S128x128_S50000x128_1_0_0_1_n_n none z W)
    (broadcastInDim S50000x128 ![0, 1] bcast_S1x128_S50000x128_0_1 b)

/-- A rectified dense layer with its bias given as a row: max (z W + b, 0). -/
def hidRow (z : Nodes) (W : Mat) (b : BiasRow) : Nodes :=
  maximumf (linRow z W b) (broadcastInDim S50000x128 ![] bcast_S_S50000x128 (constant S_ .f32 0x00000000#32))

/-- The bias vector as a row. -/
def row (b : Bias) : BiasRow := broadcastInDim S1x128 ![1] bcast_S128_S1x128_1 b

/-- The first graph layer: relu (relu ((x + nbr x) W1a + b1a) W1b + b1b), biases as rows. -/
def layer1Row (x : Nodes) (s d : EdgeIdx) (W1a : Mat) (b1a : BiasRow) (W1b : Mat) (b1b : BiasRow) : Nodes :=
  hidRow (hidRow (addf x (nbrOf x s d)) W1a b1a) W1b b1b

/-- The second graph layer: relu ((h + nbr h) W2a + b2a) W2b + b2b, biases as rows. -/
def layer2Row (h : Nodes) (s d : EdgeIdx) (W2a : Mat) (b2a : BiasRow) (W2b : Mat) (b2b : BiasRow) : Nodes :=
  linRow (hidRow (addf h (nbrOf h s d)) W2a b2a) W2b b2b

/-- The network: the second layer of the first. -/
def gin (x : Nodes) (ei : Edges) (W1a : Mat) (b1a : Bias) (W1b : Mat) (b1b : Bias) (W2a : Mat) (b2a : Bias) (W2b : Mat) (b2b : Bias) : Nodes :=
  layer2Row (layer1Row x (src ei) (dst ei) W1a (row b1a) W1b (row b1b)) (src ei) (dst ei) W2a (row b2a) W2b (row b2b)

/-- The reference's composed term is the network of its ten arguments. -/
theorem ref_eq (m : (ℓ : Loc nD τ sig) → Buf (Elt Ideal) ℓ) (c : Dev nD) :
    Cert.ReferenceIdeal.Value.res_main_v44 (F := Ideal) m c
      = gin (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.Value.res_main_v44 gin layer2Row layer1Row hidRow linRow nbrOf src dst row
  rfl

end Cert.Gin

end
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.LibDenseLayer.lean ====
/-
  ONE DENSE LAYER ON A BLOCK OF ROWS, SET BESIDE THE SAME LAYER ON THE WHOLE ARRAY, READ AT ONE ENTRY.

  A dense layer sends a row x of K numbers to the row  q ↦ (Σ_k x_k · w(k, q)) + c(0, q),  optionally followed by the
  rectifier max(·, 0). It acts on every row by itself. So if row p of a block [n, K] is row r of an array [N, K], then
  entry (p, q) of the layer applied to the block is entry (r, q) of the layer applied to the array:

  * product_entry: the matrix unit's product into a zero accumulator, both operands narrowed on the way in, against
    the host's product (a change of float format is the identity on the extended reals, and both products are the
    sum over k of left (row, k) · right (k, q), in the same order);
  * hidden_entry: product, bias row broadcast down the rows, rectifier;
  * out_entry: product and bias row only.

  The bias is a 1 x b row on both sides; the block broadcasts it as a vector broadcast, the array along its two axes.
  Generic in the extents; a program's dimension numbers enter through an equation with the plain rows-by-columns
  record.
-/
import proofs.«168536_j54065048323041_1_alg».proof.Proof.LibBlocks

noncomputable section

open scoped BigOperators

namespace Cert.LibDenseLayer

open Idealize.ShloMosaic Idealize.ShloMosaic.ValueIdx

variable {n N K b : Nat}

/-- The product: entry (p, q) of block times matrix is entry (r, q) of array times matrix, when block row p is array
    row r. -/
theorem product_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (X : FVec Ideal ⟨2, ![n, K]⟩ .f32) (XX : FVec Ideal ⟨2, ![N, K]⟩ .f32) (w : FVec Ideal ⟨2, ![K, b]⟩ .f32)
    (p : Fin n) (r : Fin N) (h0 : ∀ k : Fin K, X (ix2 p k) = XX (ix2 r k)) (q : Fin b) :
    matmul dk none (truncf .bf16 X hlt) (truncf .bf16 w hlt) (constant ⟨2, ![n, b]⟩ .f32 0x00000000#32) (ix2 p q)
      = Host.dotGeneral dr none XX w (ix2 r q) := by
  show FloatOps.matmul dk none _ _ _ _ = FloatOps.dotGeneral dr none .single XX w (ix2 r q)
  rw [Cert.LibBlocks.matmul_plain_apply dk hdk, Cert.LibBlocks.dotGeneral_plain_apply dr hdr]
  refine Finset.sum_congr rfl fun k _ => ?_
  rw [truncf_apply, truncf_apply, h0 k]

/-- The bias row broadcast down the rows of a block, at entry (p, q): the row's entry q. -/
theorem bias_block_entry
    (hc1 : (⟨2, ![1, b]⟩ : Shape).ShapeCasts ⟨2, ![1, b]⟩) (hb : (⟨2, ![1, b]⟩ : Shape).Broadcasts ⟨2, ![n, b]⟩)
    (c : FVec Ideal ⟨2, ![1, b]⟩ .f32) (p : Fin n) (q : Fin b) :
    broadcastTo ⟨2, ![n, b]⟩ (shapeCast ⟨2, ![1, b]⟩ c hc1) hb (ix2 p q) = c (ix2 (0 : Fin 1) q) := by
  rw [shapeCast_self]
  exact broadcastTo_apply c hb (ix2 p q) (ix2 (0 : Fin 1) q) (fun a => by
    match a with
    | ⟨0, _⟩ => rfl
    | ⟨1, _⟩ =>
      show q.val = if b = 1 then 0 else q.val
      have := q.isLt
      split_ifs <;> omega)

/-- The bias row broadcast along both axes of the array, at entry (r, q): the row's entry q. -/
theorem bias_array_entry
    (hbd : (⟨2, ![1, b]⟩ : Shape).BroadcastsInDim ⟨2, ![N, b]⟩ ![0, 1])
    (c : FVec Ideal ⟨2, ![1, b]⟩ .f32) (r : Fin N) (q : Fin b) :
    broadcastInDim ⟨2, ![N, b]⟩ ![0, 1] hbd c (ix2 r q) = c (ix2 (0 : Fin 1) q) :=
  broadcastInDim_apply ![0, 1] hbd c (ix2 r q) (ix2 (0 : Fin 1) q) (fun a => by
    match a with
    | ⟨0, _⟩ => rfl
    | ⟨1, _⟩ =>
      show q.val = if b = 1 then 0 else q.val
      have := q.isLt
      split_ifs <;> omega)

/-- Product and bias: entry (p, q) on the block is entry (r, q) on the array. -/
theorem out_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    addf (matmul dk none (truncf .bf16 X hlt) (truncf .bf16 w hlt) (constant ⟨2, ![n, b]⟩ .f32 0x00000000#32))
        (broadcastTo ⟨2, ![n, b]⟩ (shapeCast ⟨2, ![1, b]⟩ c hc1) hb) (ix2 p q)
      = addf (Host.dotGeneral dr none XX w) (broadcastInDim ⟨2, ![N, b]⟩ ![0, 1] hbd c) (ix2 r q) := by
  rw [addf_apply, addf_apply, product_entry dk hdk dr hdr hlt X XX w p r h0 q, bias_block_entry hc1 hb c p q,
    bias_array_entry hbd c r q]

/-- Product, bias and rectifier: entry (p, q) on the block is entry (r, q) on the array. -/
theorem hidden_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    maximumf (addf (matmul dk none (truncf .bf16 X hlt) (truncf .bf16 w hlt) (constant ⟨2, ![n, b]⟩ .f32 0x00000000#32))
          (broadcastTo ⟨2, ![n, b]⟩ (shapeCast ⟨2, ![1, b]⟩ c hc1) hb))
        (broadcast ⟨2, ![n, b]⟩ (Scalar.ofBits (F := Ideal) .f32 0x00000000#32)) (ix2 p q)
      = maximumf (addf (Host.dotGeneral dr none XX w) (broadcastInDim ⟨2, ![N, b]⟩ ![0, 1] hbd c))
        (broadcastInDim ⟨2, ![N, b]⟩ ![] hz (constant (F := Ideal) ⟨0, ![]⟩ .f32 0x00000000#32)) (ix2 r q) := by
  rw [maximumf_apply, maximumf_apply, out_entry dk hdk dr hdr hlt hc1 hb hbd X XX w c p r h0 q,
    broadcastInDim_apply ![] hz (constant (F := Ideal) ⟨0, ![]⟩ .f32 0x00000000#32) (ix2 r q) ix0 (fun a => a.elim0)]
  rfl

end Cert.LibDenseLayer

end
-- ==== Proof.Body.lean ====
/-
  What one grid point computes, read at one entry.

  The first kernel's block of 5000 rows holds relu (relu ((x + a) W1a + b1a) W1b + b1b) of its rows of x and a; the second
  kernel's holds relu ((h + a) W2a + b2a) W2b + b2b. A dense layer acts on every row by itself, so when row p of the two
  input blocks is row r of the two arrays, entry (p, q) of the block's result is entry (r, q) of the same layers applied
  to the whole arrays: two uses of the one-layer fact, the inner one supplying the outer one's row agreement. The
  narrowing to bf16 on the way into the matrix unit is the identity on the extended reals.
-/
import proofs.«168536_j54065048323041_1_alg».proof.Proof.Gen.KernelIdeal.Skeleton
import proofs.«168536_j54065048323041_1_alg».proof.Proof.Spec
import proofs.«168536_j54065048323041_1_alg».proof.Proof.LibDenseLayer

noncomputable section

namespace Cert.Gin

open Idealize.ShloMosaic Idealize.ShloMosaic.ValueIdx

/-- The kernels' contraction, rows by columns on a block of 5000 rows. -/
theorem dotK_plain : Cert.KernelIdeal.dot_S5000x128_S128x128_S5000x128_1_0_0_1_n_n = DotDims.plain 5000 128 128 := rfl

/-- The reference's contraction, rows by columns on all 50000 rows. -/
theorem dotR_plain : Cert.ReferenceIdeal.dot_S50000x128_S128x128_S50000x128_1_0_0_1_n_n = DotDims.plain 50000 128 128 := rfl

/-- The first kernel's block at entry (p, q): two rectified layers of x + a at (r, q), when block row p of both inputs is
    array row r. -/
theorem body0_entry (x0 x1 : Vec Ideal Cert.KernelIdeal.S5000x128 .f32) (x2 : Vec Ideal Cert.KernelIdeal.S128x128 .f32)
    (x3 : Vec Ideal Cert.KernelIdeal.S1x128 .f32) (x4 : Vec Ideal Cert.KernelIdeal.S128x128 .f32)
    (x5 : Vec Ideal Cert.KernelIdeal.S1x128 .f32) (H A : Nodes) (p : Fin 5000) (r : Fin 50000) (q : Fin 128)
    (h0 : ∀ k : Fin 128, x0 (ix2 p k) = H (ix2 r k)) (h1 : ∀ k : Fin 128, x1 (ix2 p k) = A (ix2 r k)) :
    Cert.KernelIdeal.Gen.k0_pay1 (F := Ideal) x0 x1 x2 x3 x4 x5 (ix2 p q)
      = hidRow (hidRow (addf H A) x2 x3) x4 x5 (ix2 r q) := by
  unfold Cert.KernelIdeal.Gen.k0_pay1 hidRow linRow
  exact Cert.LibDenseLayer.hidden_entry _ dotK_plain _ dotR_plain _ _ _ _ _ _ _ x4 x5 p r
    (fun k => Cert.LibDenseLayer.hidden_entry _ dotK_plain _ dotR_plain _ _ _ _ _
      (addf x0 (shapeCast Cert.KernelIdeal.S5000x128 x1 Cert.KernelIdeal.Facts₀.shapeCasts_S5000x128_S5000x128)) (addf H A) x2 x3 p r
      (fun k' => by rw [addf_apply, addf_apply, shapeCast_self, h0, h1]) k) q

/-- The second kernel's block at entry (p, q): a rectified layer then a plain one of h + a at (r, q), when block row p of
    both inputs is array row r. -/
theorem body1_entry (x0 x1 : Vec Ideal Cert.KernelIdeal.S5000x128 .f32) (x2 : Vec Ideal Cert.KernelIdeal.S128x128 .f32)
    (x3 : Vec Ideal Cert.KernelIdeal.S1x128 .f32) (x4 : Vec Ideal Cert.KernelIdeal.S128x128 .f32)
    (x5 : Vec Ideal Cert.KernelIdeal.S1x128 .f32) (H A : Nodes) (p : Fin 5000) (r : Fin 50000) (q : Fin 128)
    (h0 : ∀ k : Fin 128, x0 (ix2 p k) = H (ix2 r k)) (h1 : ∀ k : Fin 128, x1 (ix2 p k) = A (ix2 r k)) :
    Cert.KernelIdeal.Gen.k1_pay1 (F := Ideal) x0 x1 x2 x3 x4 x5 (ix2 p q)
      = linRow (hidRow (addf H A) x2 x3) x4 x5 (ix2 r q) := by
  unfold Cert.KernelIdeal.Gen.k1_pay1 hidRow linRow
  exact Cert.LibDenseLayer.out_entry _ dotK_plain _ dotR_plain _ _ _ _ _ _ x4 x5 p r
    (fun k => Cert.LibDenseLayer.hidden_entry _ dotK_plain _ dotR_plain _ _ _ _ _
      (addf (shapeCast Cert.KernelIdeal.S5000x128 x0 Cert.KernelIdeal.Facts₀.shapeCasts_S5000x128_S5000x128)
        (shapeCast Cert.KernelIdeal.S5000x128 x1 Cert.KernelIdeal.Facts₀.shapeCasts_S5000x128_S5000x128)) (addf H A) x2 x3 p r
      (fun k' => by rw [addf_apply, addf_apply, shapeCast_self, shapeCast_self, h0, h1]) k) q

end Cert.Gin

end
-- ==== Proof.Region.lean ====
/-
  Each kernel region's output array after its run, as one function of the arrays the region finds.

  A region works the 50000 rows in ten blocks of 5000: at point t its two row inputs are rows 5000 t … 5000 t + 4999 of
  their arrays, its weights and bias rows are the whole arrays (block 0 of a one-block grid), and what it writes back
  is rows 5000 t … 5000 t + 4999 of the output. By the entry lemmas of the body, what point t writes is block t of the
  specification's layers applied to the whole entry arrays; the ten blocks cover the output (row r lies in block
  r / 5000), so the output array ends holding exactly those layers. The entry contents are a parameter: the run
  supplies them per region.
-/
import proofs.«168536_j54065048323041_1_alg».proof.Proof.Gen.KernelIdeal.Frame
import proofs.«168536_j54065048323041_1_alg».proof.Proof.Body
import Idealize.ShloMosaic.Lib.Pipeline.Value

set_option maxRecDepth 16384

noncomputable section

namespace Cert.Gin

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem off0 : (![0, 0] : Fin 2 → Nat) = fun _ => 0 := funext fun a => by fin_cases a <;> rfl

/-! ## Region 0 -/

/-- The printed index maps of region 0 over its ten points: the row windows (0, 1, 6) sit at block (t, 0), the weights
    and bias rows at block (0, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of the node features' block at point t is row 5000 t + p of the array. -/
theorem iblk0_0_row (c : Dev nD) (t : Fin cfg0.N) (p : Fin 5000) (r : Fin 50000) (hr : r.val = 5000 * t.val + p.val) (k : Fin 128) :
    (iblk0 V c 0 t : Vec Ideal S5000x128 .f32) (ix2 p k) = (V c main_arg0 : S50000x128.Idx → Elt Ideal .f32) (ix2 r k) := by
  unfold iblk0
  rw [View.read_apply]
  show V c main_arg0 _ = V c main_arg0 _
  congr 1
  funext a
  apply Fin.ext
  match a with
  | ⟨0, _⟩ => show win0_0.index t (0 : Fin 2) * 5000 + 1 * p.val = r.val; rw [(idx0 t).1, hr]; omega
  | ⟨1, _⟩ => show win0_0.index t (1 : Fin 2) * 128 + 1 * k.val = k.val; rw [(idx0 t).2.1]; omega

/-- Row p of the neighbour sums' block at point t is row 5000 t + p of the array. -/
theorem iblk0_1_row (c : Dev nD) (t : Fin cfg0.N) (p : Fin 5000) (r : Fin 50000) (hr : r.val = 5000 * t.val + p.val) (k : Fin 128) :
    (iblk0 V c 1 t : Vec Ideal S5000x128 .f32) (ix2 p k) = (V c main_v13 : S50000x128.Idx → Elt Ideal .f32) (ix2 r k) := by
  unfold iblk0
  rw [View.read_apply]
  show V c main_v13 _ = V c main_v13 _
  congr 1
  funext a
  apply Fin.ext
  match a with
  | ⟨0, _⟩ => show win0_1.index t (0 : Fin 2) * 5000 + 1 * p.val = r.val; rw [(idx0 t).2.2.1, hr]; omega
  | ⟨1, _⟩ => show win0_1.index t (1 : Fin 2) * 128 + 1 * k.val = k.val; rw [(idx0 t).2.2.2.1]; omega

/-- The first weight window's block is the whole matrix. -/
theorem iblk0_2_whole (c : Dev nD) (t : Fin cfg0.N) :
    (iblk0 V c 2 t : Vec Ideal S128x128 .f32) = (V c main_arg2 : S128x128.Idx → Elt Ideal .f32) := by
  funext y
  unfold iblk0
  rw [View.read_apply]
  show V c main_arg2 _ = V c main_arg2 y
  congr 1
  funext a
  apply Fin.ext
  match a with
  | ⟨0, _⟩ => show win0_2.index t (0 : Fin 2) * 128 + 1 * (y 0).val = (y 0).val; rw [(idx0 t).2.2.2.2.1]; omega
  | ⟨1, _⟩ => show win0_2.index t (1 : Fin 2) * 128 + 1 * (y 1).val = (y 1).val; rw [(idx0 t).2.2.2.2.2.1]; omega

/-- The first bias window's block is the whole row. -/
theorem iblk0_3_whole (c : Dev nD) (t : Fin cfg0.N) :
    (iblk0 V c 3 t : Vec Ideal S1x128 .f32) = (V c main_v14 : S1x128.Idx → Elt Ideal .f32) := by
  funext y
  unfold iblk0
  rw [View.read_apply]
  show V c main_v14 _ = V c main_v14 y
  congr 1
  funext a
  apply Fin.ext
  match a with
  | ⟨0, _⟩ => show win0_3.index t (0 : Fin 2) * 1 + 1 * (y 0).val = (y 0).val; rw [(idx0 t).2.2.2.2.2.2.1]; omega
  | ⟨1, _⟩ => show win0_3.index t (1 : Fin 2) * 128 + 1 * (y 1).val = (y 1).val; rw [(idx0 t).2.2.2.2.2.2.2.1]; omega

/-- The second weight window's block is the whole matrix. -/
theorem iblk0_4_whole (c : Dev nD) (t : Fin cfg0.N) :
    (iblk0 V c 4 t : Vec Ideal S128x128 .f32) = (V c main_arg4 : S128x128.Idx → Elt Ideal .f32) := by
  funext y
  unfold iblk0
  rw [View.read_apply]
  show V c main_arg4 _ = V c main_arg4 y
  congr 1
  funext a
  apply Fin.ext
  match a with
  | ⟨0, _⟩ => show win0_4.index t (0 : Fin 2) * 128 + 1 * (y 0).val = (y 0).val; rw [(idx0 t).2.2.2.2.2.2.2.2.1]; omega
  | ⟨1, _⟩ => show win0_4.index t (1 : Fin 2) * 128 + 1 * (y 1).val = (y 1).val; rw [(idx0 t).2.2.2.2.2.2.2.2.2.1]; omega

/-- The second bias window's block is the whole row. -/
theorem iblk0_5_whole (c : Dev nD) (t : Fin cfg0.N) :
    (iblk0 V c 5 t : Vec Ideal S1x128 .f32) = (V c main_v15 : S1x128.Idx → Elt Ideal .f32) := by
  funext y
  unfold iblk0
  rw [View.read_apply]
  show V c main_v15 _ = V c main_v15 y
  congr 1
  funext a
  apply Fin.ext
  match a with
  | ⟨0, _⟩ => show win0_5.index t (0 : Fin 2) * 1 + 1 * (y 0).val = (y 0).val; rw [(idx0 t).2.2.2.2.2.2.2.2.2.2.1]; omega
  | ⟨1, _⟩ => show win0_5.index t (1 : Fin 2) * 128 + 1 * (y 1).val = (y 1).val; rw [(idx0 t).2.2.2.2.2.2.2.2.2.2.2.1]; omega

/-- What region 0's output array ends holding: the first graph layer's two rectified dense layers of the arrays the
    region finds. -/
abbrev out0 (c : Dev nD) : Nodes :=
  hidRow (hidRow (addf (V c main_arg0) (V c main_v13)) (V c main_arg2) (V c main_v14)) (V c main_arg4) (V c main_v15)

/-- What point t writes back is block t of out0. -/
theorem flushed0 (c : Dev nD) (t : Fin cfg0.N) :
    (dat0 V c).flushed 6 t = ((cfg0.win 6).blk t).view.read (Elt Ideal) (out0 V c) := by
  show (cfg0.win 6).cut (grid0.coords t) ((dat0 V c).after 6 t) = _
  rw [after0_6]
  unfold out0_6
  rw [View.canon_unit_zero off0]
  simp only [View.ld_unit_zero (S := S5000x128) off0, View.ld_unit_zero (S := S128x128) off0, View.ld_unit_zero (S := S1x128) off0]
  rw [iblk0_2_whole, iblk0_3_whole, iblk0_4_whole, iblk0_5_whole]
  funext j
  have ht : t.val < 10 := t.isLt.trans_eq N_0
  show k0_pay1 (iblk0 V c 0 t) (iblk0 V c 1 t) (V c main_arg2) (V c main_v14) (V c main_arg4) (V c main_v15) j
    = out0 V c (((cfg0.win 6).blk t).view.emb j)
  obtain ⟨p, q, rfl⟩ : ∃ (p : Fin 5000) (q : Fin 128), j = ix2 p q := ⟨j 0, j 1, eq_ix2 (n0 := 5000) (n1 := 128) j⟩
  refine (body0_entry (iblk0 V c 0 t) (iblk0 V c 1 t) (V c main_arg2) (V c main_v14) (V c main_arg4) (V c main_v15)
    (V c main_arg0) (V c main_v13) p ⟨5000 * t.val + p.val, by have := p.isLt; omega⟩ q
    (fun k => iblk0_0_row V c t p _ rfl k) (fun k => iblk0_1_row V c t p _ rfl k)).trans ?_
  show out0 V c _ = out0 V c _
  congr 1
  funext a
  apply Fin.ext
  match a with
  | ⟨0, _⟩ => show 5000 * t.val + p.val = win0_6.index t (0 : Fin 2) * 5000 + 1 * p.val; rw [(idx0 t).2.2.2.2.2.2.2.2.2.2.2.2.1]; omega
  | ⟨1, _⟩ => show q.val = win0_6.index t (1 : Fin 2) * 128 + 1 * q.val; rw [(idx0 t).2.2.2.2.2.2.2.2.2.2.2.2.2]; omega

/-- Region 0's output array after the run: the ten blocks cover it, row r in block r / 5000. -/
theorem final0 (c : Dev nD) : (dat0 V c).arrAt 6 cfg0.N = out0 V c :=
  (dat0 V c).arrAt_eq_of_cover 6 (out0 V c) (fun t _ => flushed0 V c t) fun i => by
    have hi0 : (i 0).val < 50000 := (i 0).isLt
    have hi1 : (i 1).val < 128 := (i 1).isLt
    obtain ⟨t, ht⟩ : ∃ t : Fin cfg0.N, t.val = (i 0).val / 5000 :=
      ⟨⟨(i 0).val / 5000, (show (i 0).val / 5000 < 10 by omega).trans_eq N_0.symm⟩, rfl⟩
    refine ⟨t, flush0_6 t, ?_⟩
    show i ∈ ((View.whole main_v16).slice (win0_6.rect t)).set
    rw [View.set_slice_whole, Rect.mem_set_unit]
    intro a
    match a with
    | ⟨0, _⟩ =>
      show win0_6.index t (0 : Fin 2) * 5000 ≤ (i 0).val ∧ (i 0).val < win0_6.index t (0 : Fin 2) * 5000 + 5000
      rw [(idx0 t).2.2.2.2.2.2.2.2.2.2.2.2.1, ht]
      omega
    | ⟨1, _⟩ =>
      show win0_6.index t (1 : Fin 2) * 128 ≤ (i 1).val ∧ (i 1).val < win0_6.index t (1 : Fin 2) * 128 + 128
      rw [(idx0 t).2.2.2.2.2.2.2.2.2.2.2.2.2]
      omega

/-! ## Region 1 -/

/-- The printed index maps of region 1 over its ten points: the row windows (0, 1, 6) sit at block (t, 0), the weights
    and bias rows at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of the first input's block at point t is row 5000 t + p of its array. -/
theorem iblk1_0_row (c : Dev nD) (t : Fin cfg1.N) (p : Fin 5000) (r : Fin 50000) (hr : r.val = 5000 * t.val + p.val) (k : Fin 128) :
    (iblk1 V c 0 t : Vec Ideal S5000x128 .f32) (ix2 p k) = (V c main_v16 : S50000x128.Idx → Elt Ideal .f32) (ix2 r k) := by
  unfold iblk1
  rw [View.read_apply]
  show V c main_v16 _ = V c main_v16 _
  congr 1
  funext a
  apply Fin.ext
  match a with
  | ⟨0, _⟩ => show win1_0.index t (0 : Fin 2) * 5000 + 1 * p.val = r.val; rw [(idx1 t).1, hr]; omega
  | ⟨1, _⟩ => show win1_0.index t (1 : Fin 2) * 128 + 1 * k.val = k.val; rw [(idx1 t).2.1]; omega

/-- Row p of the second input's block at point t is row 5000 t + p of its array. -/
theorem iblk1_1_row (c : Dev nD) (t : Fin cfg1.N) (p : Fin 5000) (r : Fin 50000) (hr : r.val = 5000 * t.val + p.val) (k : Fin 128) :
    (iblk1 V c 1 t : Vec Ideal S5000x128 .f32) (ix2 p k) = (V c main_v26 : S50000x128.Idx → Elt Ideal .f32) (ix2 r k) := by
  unfold iblk1
  rw [View.read_apply]
  show V c main_v26 _ = V c main_v26 _
  congr 1
  funext a
  apply Fin.ext
  match a with
  | ⟨0, _⟩ => show win1_1.index t (0 : Fin 2) * 5000 + 1 * p.val = r.val; rw [(idx1 t).2.2.1, hr]; omega
  | ⟨1, _⟩ => show win1_1.index t (1 : Fin 2) * 128 + 1 * k.val = k.val; rw [(idx1 t).2.2.2.1]; omega

/-- The first weight window's block is the whole matrix. -/
theorem iblk1_2_whole (c : Dev nD) (t : Fin cfg1.N) :
    (iblk1 V c 2 t : Vec Ideal S128x128 .f32) = (V c main_arg6 : S128x128.Idx → Elt Ideal .f32) := by
  funext y
  unfold iblk1
  rw [View.read_apply]
  show V c main_arg6 _ = V c main_arg6 y
  congr 1
  funext a
  apply Fin.ext
  match a with
  | ⟨0, _⟩ => show win1_2.index t (0 : Fin 2) * 128 + 1 * (y 0).val = (y 0).val; rw [(idx1 t).2.2.2.2.1]; omega
  | ⟨1, _⟩ => show win1_2.index t (1 : Fin 2) * 128 + 1 * (y 1).val = (y 1).val; rw [(idx1 t).2.2.2.2.2.1]; omega

/-- The first bias window's block is the whole row. -/
theorem iblk1_3_whole (c : Dev nD) (t : Fin cfg1.N) :
    (iblk1 V c 3 t : Vec Ideal S1x128 .f32) = (V c main_v27 : S1x128.Idx → Elt Ideal .f32) := by
  funext y
  unfold iblk1
  rw [View.read_apply]
  show V c main_v27 _ = V c main_v27 y
  congr 1
  funext a
  apply Fin.ext
  match a with
  | ⟨0, _⟩ => show win1_3.index t (0 : Fin 2) * 1 + 1 * (y 0).val = (y 0).val; rw [(idx1 t).2.2.2.2.2.2.1]; omega
  | ⟨1, _⟩ => show win1_3.index t (1 : Fin 2) * 128 + 1 * (y 1).val = (y 1).val; rw [(idx1 t).2.2.2.2.2.2.2.1]; omega

/-- The second weight window's block is the whole matrix. -/
theorem iblk1_4_whole (c : Dev nD) (t : Fin cfg1.N) :
    (iblk1 V c 4 t : Vec Ideal S128x128 .f32) = (V c main_arg8 : S128x128.Idx → Elt Ideal .f32) := by
  funext y
  unfold iblk1
  rw [View.read_apply]
  show V c main_arg8 _ = V c main_arg8 y
  congr 1
  funext a
  apply Fin.ext
  match a with
  | ⟨0, _⟩ => show win1_4.index t (0 : Fin 2) * 128 + 1 * (y 0).val = (y 0).val; rw [(idx1 t).2.2.2.2.2.2.2.2.1]; omega
  | ⟨1, _⟩ => show win1_4.index t (1 : Fin 2) * 128 + 1 * (y 1).val = (y 1).val; rw [(idx1 t).2.2.2.2.2.2.2.2.2.1]; omega

/-- The second bias window's block is the whole row. -/
theorem iblk1_5_whole (c : Dev nD) (t : Fin cfg1.N) :
    (iblk1 V c 5 t : Vec Ideal S1x128 .f32) = (V c main_v28 : S1x128.Idx → Elt Ideal .f32) := by
  funext y
  unfold iblk1
  rw [View.read_apply]
  show V c main_v28 _ = V c main_v28 y
  congr 1
  funext a
  apply Fin.ext
  match a with
  | ⟨0, _⟩ => show win1_5.index t (0 : Fin 2) * 1 + 1 * (y 0).val = (y 0).val; rw [(idx1 t).2.2.2.2.2.2.2.2.2.2.1]; omega
  | ⟨1, _⟩ => show win1_5.index t (1 : Fin 2) * 128 + 1 * (y 1).val = (y 1).val; rw [(idx1 t).2.2.2.2.2.2.2.2.2.2.2.1]; omega

/-- What region 1's output array ends holding: the second graph layer's dense part of the arrays the region finds. -/
abbrev out1 (c : Dev nD) : Nodes :=
  linRow (hidRow (addf (V c main_v16) (V c main_v26)) (V c main_arg6) (V c main_v27)) (V c main_arg8) (V c main_v28)

/-- What point t writes back is block t of out1. -/
theorem flushed1 (c : Dev nD) (t : Fin cfg1.N) :
    (dat1 V c).flushed 6 t = ((cfg1.win 6).blk t).view.read (Elt Ideal) (out1 V c) := by
  show (cfg1.win 6).cut (grid1.coords t) ((dat1 V c).after 6 t) = _
  rw [after1_6]
  unfold out1_6
  rw [View.canon_unit_zero off0]
  simp only [View.ld_unit_zero (S := S5000x128) off0, View.ld_unit_zero (S := S128x128) off0, View.ld_unit_zero (S := S1x128) off0]
  rw [iblk1_2_whole, iblk1_3_whole, iblk1_4_whole, iblk1_5_whole]
  funext j
  have ht : t.val < 10 := t.isLt.trans_eq N_1
  show k1_pay1 (iblk1 V c 0 t) (iblk1 V c 1 t) (V c main_arg6) (V c main_v27) (V c main_arg8) (V c main_v28) j
    = out1 V c (((cfg1.win 6).blk t).view.emb j)
  obtain ⟨p, q, rfl⟩ : ∃ (p : Fin 5000) (q : Fin 128), j = ix2 p q := ⟨j 0, j 1, eq_ix2 (n0 := 5000) (n1 := 128) j⟩
  refine (body1_entry (iblk1 V c 0 t) (iblk1 V c 1 t) (V c main_arg6) (V c main_v27) (V c main_arg8) (V c main_v28)
    (V c main_v16) (V c main_v26) p ⟨5000 * t.val + p.val, by have := p.isLt; omega⟩ q
    (fun k => iblk1_0_row V c t p _ rfl k) (fun k => iblk1_1_row V c t p _ rfl k)).trans ?_
  show out1 V c _ = out1 V c _
  congr 1
  funext a
  apply Fin.ext
  match a with
  | ⟨0, _⟩ => show 5000 * t.val + p.val = win1_6.index t (0 : Fin 2) * 5000 + 1 * p.val; rw [(idx1 t).2.2.2.2.2.2.2.2.2.2.2.2.1]; omega
  | ⟨1, _⟩ => show q.val = win1_6.index t (1 : Fin 2) * 128 + 1 * q.val; rw [(idx1 t).2.2.2.2.2.2.2.2.2.2.2.2.2]; omega

/-- Region 1's output array after the run: the ten blocks cover it, row r in block r / 5000. -/
theorem final1 (c : Dev nD) : (dat1 V c).arrAt 6 cfg1.N = out1 V c :=
  (dat1 V c).arrAt_eq_of_cover 6 (out1 V c) (fun t _ => flushed1 V c t) fun i => by
    have hi0 : (i 0).val < 50000 := (i 0).isLt
    have hi1 : (i 1).val < 128 := (i 1).isLt
    obtain ⟨t, ht⟩ : ∃ t : Fin cfg1.N, t.val = (i 0).val / 5000 :=
      ⟨⟨(i 0).val / 5000, (show (i 0).val / 5000 < 10 by omega).trans_eq N_1.symm⟩, rfl⟩
    refine ⟨t, flush1_6 t, ?_⟩
    show i ∈ ((View.whole main_v29).slice (win1_6.rect t)).set
    rw [View.set_slice_whole, Rect.mem_set_unit]
    intro a
    match a with
    | ⟨0, _⟩ =>
      show win1_6.index t (0 : Fin 2) * 5000 ≤ (i 0).val ∧ (i 0).val < win1_6.index t (0 : Fin 2) * 5000 + 5000
      rw [(idx1 t).2.2.2.2.2.2.2.2.2.2.2.2.1, ht]
      omega
    | ⟨1, _⟩ =>
      show win1_6.index t (1 : Fin 2) * 128 ≤ (i 1).val ∧ (i 1).val < win1_6.index t (1 : Fin 2) * 128 + 128
      rw [(idx1 t).2.2.2.2.2.2.2.2.2.2.2.2.2]
      omega

end Cert.Gin

end
-- ==== Proof.LibLayout.lean ====
/-
  Two ways to write a vector as a matrix with one unit axis. A vector of n entries as a 1 x n row is the same array
  whether it is reshaped or broadcast along axis 1: entry (0, j) is entry j. As an n x 1 column it is the same whether
  reshaped or broadcast along axis 0: entry (i, 0) is entry i. In each case the row-major position of the matrix
  entry is the vector's index, because the other axis has length 1.
-/
import Idealize.ShloMosaic.Lib.Pipeline.Value
import Idealize.ShloMosaic.Lib.ValueIdx

namespace Cert.Proof.Layout

open Idealize.ShloMosaic Idealize.ShloMosaic.ValueIdx

variable {α : Type}

/-- A vector of n entries as a 1 x n row: the reshape is the broadcast along axis 1. -/
theorem reshape_row_eq_broadcastInDim {n : Nat} (x : (⟨1, ![n]⟩ : Shape).Idx → α)
    (h : (⟨1, ![n]⟩ : Shape).ShapeCasts ⟨2, ![1, n]⟩)
    (hd : (⟨1, ![n]⟩ : Shape).BroadcastsInDim ⟨2, ![1, n]⟩ ![1]) :
    shapeCast ⟨2, ![1, n]⟩ x h = broadcastInDim ⟨2, ![1, n]⟩ ![1] hd x := by
  funext i
  have h0 : (i 0).val < 1 := (i 0).isLt
  have h1 : (i 1).val < n := (i 1).isLt
  have e2 := shapeCast_apply x h i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · omega
      · rfl)
  exact e2.trans e3.symm

/-- A vector of n entries as an n x 1 column: the reshape is the broadcast along axis 0. -/
theorem reshape_col_eq_broadcastInDim {n : Nat} (x : (⟨1, ![n]⟩ : Shape).Idx → α)
    (h : (⟨1, ![n]⟩ : Shape).ShapeCasts ⟨2, ![n, 1]⟩)
    (hd : (⟨1, ![n]⟩ : Shape).BroadcastsInDim ⟨2, ![n, 1]⟩ ![0]) :
    shapeCast ⟨2, ![n, 1]⟩ x h = broadcastInDim ⟨2, ![n, 1]⟩ ![0] hd x := by
  funext i
  have h0 : (i 0).val < n := (i 0).isLt
  have h1 : (i 1).val < 1 := (i 1).isLt
  have e2 := shapeCast_apply x h i (ix1 (i 0 : Fin n)) (by
    rw [Shape.rowMajor_val_two, Shape.rowMajor_val_one]
    show (i 0).val = (i 0).val * 1 + (i 1).val
    omega)
  have e3 := broadcastInDim_apply ![0] hd x i (ix1 (i 0 : Fin n)) (by
    intro a
    match a with
    | ⟨0, _⟩ =>
      show (i 0).val = if n = 1 then 0 else (i 0).val
      split
      · omega
      · rfl)
  exact e2.trans e3.symm

end Cert.Proof.Layout
-- ==== Proof.KValue.lean ====
/-
  The kernel program's result, followed through its four segments.

  @main is a host stretch, a kernel region, a second host stretch and a second kernel region. The contents of the
  buffers at each boundary are a fold from the launch memory. Read in order:
  * after the first stretch the edge list has been split into sources and destinations, the neighbour sum of the
    node features x has been formed, and the first layer's two bias vectors have been reshaped to rows (a reshape of a
    vector to a 1 x 128 row is its broadcast along axis 1);
  * region 0 leaves h = relu (relu ((x + nbr x) W1a + b1a) W1b + b1b) in its output array and touches nothing else;
  * the second stretch forms the neighbour sum of h over the same sources and destinations and reshapes the second
    layer's biases;
  * region 1 leaves relu ((h + nbr h) W2a + b2a) W2b + b2b in the result array.
  So the result array holds the network of the ten arguments.
-/
import proofs.«168536_j54065048323041_1_alg».proof.Proof.Region
import proofs.«168536_j54065048323041_1_alg».proof.Proof.LibLayout
import Idealize.ShloMosaic.Lib.StableHlo.Run

set_option maxRecDepth 16384

noncomputable section

namespace Cert.Gin

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- A bias vector reshaped to a row is the row the specification makes of it. -/
theorem reshape_eq_row (b : Bias) : shapeCast Cert.KernelIdeal.S1x128 b Cert.KernelIdeal.Facts₀.shapeCasts_S128_S1x128 = row b :=
  Cert.Proof.Layout.reshape_row_eq_broadcastInDim (n := 128) b _ _

/-! ## After the first host stretch -/

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl

theorem W1_arg2 (c : Dev nD) : W1 m ρ c (Proc.devRef .tc main_arg2) = m ((c : Thread nD τ).loc main_arg2) := by
  show StableHlo.after hostOps0 (W0 m ρ c) (Proc.devRef .tc main_arg2) = _
  after_results <;> rfl

theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl

theorem W1_arg6 (c : Dev nD) : W1 m ρ c (Proc.devRef .tc main_arg6) = m ((c : Thread nD τ).loc main_arg6) := by
  show StableHlo.after hostOps0 (W0 m ρ c) (Proc.devRef .tc main_arg6) = _
  after_results <;> rfl

theorem W1_arg7 (c : Dev nD) : W1 m ρ c (Proc.devRef .tc main_arg7) = m ((c : Thread nD τ).loc main_arg7) := by
  show StableHlo.after hostOps0 (W0 m ρ c) (Proc.devRef .tc main_arg7) = _
  after_results <;> rfl

theorem W1_arg8 (c : Dev nD) : W1 m ρ c (Proc.devRef .tc main_arg8) = m ((c : Thread nD τ).loc main_arg8) := by
  show StableHlo.after hostOps0 (W0 m ρ c) (Proc.devRef .tc main_arg8) = _
  after_results <;> rfl

theorem W1_arg9 (c : Dev nD) : W1 m ρ c (Proc.devRef .tc main_arg9) = m ((c : Thread nD τ).loc main_arg9) := by
  show StableHlo.after hostOps0 (W0 m ρ c) (Proc.devRef .tc main_arg9) = _
  after_results <;> rfl

/-- The sources. -/
theorem W1_v1 (c : Dev nD) : W1 m ρ c (Proc.devRef .tc main_v1) = src (m ((c : Thread nD τ).loc main_arg1)) := by
  show StableHlo.after hostOps0 (W0 m ρ c) (Proc.devRef .tc main_v1) = _
  unfold src
  after_results <;> rfl

/-- The destinations. -/
theorem W1_v3 (c : Dev nD) : W1 m ρ c (Proc.devRef .tc main_v3) = dst (m ((c : Thread nD τ).loc main_arg1)) := by
  show StableHlo.after hostOps0 (W0 m ρ c) (Proc.devRef .tc main_v3) = _
  unfold dst
  after_results <;> rfl

/-- The neighbour sum of the node features. -/
theorem W1_v13 (c : Dev nD) : W1 m ρ c (Proc.devRef .tc main_v13) = nbrOf (m ((c : Thread nD τ).loc main_arg0)) (src (m ((c : Thread nD τ).loc main_arg1))) (dst (m ((c : Thread nD τ).loc main_arg1))) := by
  show StableHlo.after hostOps0 (W0 m ρ c) (Proc.devRef .tc main_v13) = _
  unfold nbrOf src dst
  after_results <;> rfl

/-- The first layer's first bias, as a row. -/
theorem W1_v14 (c : Dev nD) : W1 m ρ c (Proc.devRef .tc main_v14) = row (m ((c : Thread nD τ).loc main_arg3)) := by
  refine Eq.trans ?_ (reshape_eq_row (m ((c : Thread nD τ).loc main_arg3)))
  show StableHlo.after hostOps0 (W0 m ρ c) (Proc.devRef .tc main_v14) = _
  after_results <;> rfl

/-- The first layer's second bias, as a row. -/
theorem W1_v15 (c : Dev nD) : W1 m ρ c (Proc.devRef .tc main_v15) = row (m ((c : Thread nD τ).loc main_arg5)) := by
  refine Eq.trans ?_ (reshape_eq_row (m ((c : Thread nD τ).loc main_arg5)))
  show StableHlo.after hostOps0 (W0 m ρ c) (Proc.devRef .tc main_v15) = _
  after_results <;> rfl

/-! ## After region 0 -/

/-- The first graph layer of the arguments, as the run holds it. -/
abbrev hidden1 (c : Dev nD) : Nodes :=
  layer1Row (m ((c : Thread nD τ).loc main_arg0)) (src (m ((c : Thread nD τ).loc main_arg1))) (dst (m ((c : Thread nD τ).loc main_arg1))) (m ((c : Thread nD τ).loc main_arg2)) (row (m ((c : Thread nD τ).loc main_arg3))) (m ((c : Thread nD τ).loc main_arg4)) (row (m ((c : Thread nD τ).loc main_arg5)))

/-- Region 0's output array: the first graph layer. -/
theorem W2_v16 (c : Dev nD) : W2 m ρ c (Proc.devRef .tc main_v16) = hidden1 m c := by
  refine (W2_arr m ρ c 6).trans ((final0 (V1 m ρ) c).trans ?_)
  show hidRow (hidRow (addf (W1 m ρ c (Proc.devRef .tc main_arg0)) (W1 m ρ c (Proc.devRef .tc main_v13)))
      (W1 m ρ c (Proc.devRef .tc main_arg2)) (W1 m ρ c (Proc.devRef .tc main_v14)))
      (W1 m ρ c (Proc.devRef .tc main_arg4)) (W1 m ρ c (Proc.devRef .tc main_v15)) = _
  rw [W1_arg0, W1_v13, W1_arg2, W1_v14, W1_arg4, W1_v15]
  rfl

/-- What region 0 does not write keeps its contents: the sources, -/
theorem W2_v1 (c : Dev nD) : W2 m ρ c (Proc.devRef .tc main_v1) = src (m ((c : Thread nD τ).loc main_arg1)) :=
  (W2_of_ne m ρ c main_v1 (by decide)).trans (W1_v1 m ρ c)

/-- the destinations, -/
theorem W2_v3 (c : Dev nD) : W2 m ρ c (Proc.devRef .tc main_v3) = dst (m ((c : Thread nD τ).loc main_arg1)) :=
  (W2_of_ne m ρ c main_v3 (by decide)).trans (W1_v3 m ρ c)

/-- and the second layer's weights and biases. -/
theorem W2_arg6 (c : Dev nD) : W2 m ρ c (Proc.devRef .tc main_arg6) = m ((c : Thread nD τ).loc main_arg6) :=
  (W2_of_ne m ρ c main_arg6 (by decide)).trans (W1_arg6 m ρ c)

theorem W2_arg7 (c : Dev nD) : W2 m ρ c (Proc.devRef .tc main_arg7) = m ((c : Thread nD τ).loc main_arg7) :=
  (W2_of_ne m ρ c main_arg7 (by decide)).trans (W1_arg7 m ρ c)

theorem W2_arg8 (c : Dev nD) : W2 m ρ c (Proc.devRef .tc main_arg8) = m ((c : Thread nD τ).loc main_arg8) :=
  (W2_of_ne m ρ c main_arg8 (by decide)).trans (W1_arg8 m ρ c)

theorem W2_arg9 (c : Dev nD) : W2 m ρ c (Proc.devRef .tc main_arg9) = m ((c : Thread nD τ).loc main_arg9) :=
  (W2_of_ne m ρ c main_arg9 (by decide)).trans (W1_arg9 m ρ c)

/-! ## After the second host stretch -/

theorem W3_v16 (c : Dev nD) : W3 m ρ c (Proc.devRef .tc main_v16) = hidden1 m c := by
  refine Eq.trans ?_ (W2_v16 m ρ c)
  show StableHlo.after hostOps1 (W2 m ρ c) (Proc.devRef .tc main_v16) = _
  after_results <;> rfl

/-- The neighbour sum of the first graph layer, over the same edges. -/
theorem W3_v26 (c : Dev nD) :
    W3 m ρ c (Proc.devRef .tc main_v26) = nbrOf (hidden1 m c) (src (m ((c : Thread nD τ).loc main_arg1))) (dst (m ((c : Thread nD τ).loc main_arg1))) := by
  rw [← W2_v16 m ρ c, ← W2_v1 m ρ c, ← W2_v3 m ρ c]
  show StableHlo.after hostOps1 (W2 m ρ c) (Proc.devRef .tc main_v26) = _
  unfold nbrOf
  after_results <;> rfl

theorem W3_arg6 (c : Dev nD) : W3 m ρ c (Proc.devRef .tc main_arg6) = m ((c : Thread nD τ).loc main_arg6) := by
  refine Eq.trans ?_ (W2_arg6 m ρ c)
  show StableHlo.after hostOps1 (W2 m ρ c) (Proc.devRef .tc main_arg6) = _
  after_results <;> rfl

theorem W3_arg8 (c : Dev nD) : W3 m ρ c (Proc.devRef .tc main_arg8) = m ((c : Thread nD τ).loc main_arg8) := by
  refine Eq.trans ?_ (W2_arg8 m ρ c)
  show StableHlo.after hostOps1 (W2 m ρ c) (Proc.devRef .tc main_arg8) = _
  after_results <;> rfl

/-- The second layer's first bias, as a row. -/
theorem W3_v27 (c : Dev nD) : W3 m ρ c (Proc.devRef .tc main_v27) = row (m ((c : Thread nD τ).loc main_arg7)) := by
  refine Eq.trans ?_ (reshape_eq_row (m ((c : Thread nD τ).loc main_arg7)))
  rw [← W2_arg7 m ρ c]
  show StableHlo.after hostOps1 (W2 m ρ c) (Proc.devRef .tc main_v27) = _
  after_results <;> rfl

/-- The second layer's second bias, as a row. -/
theorem W3_v28 (c : Dev nD) : W3 m ρ c (Proc.devRef .tc main_v28) = row (m ((c : Thread nD τ).loc main_arg9)) := by
  refine Eq.trans ?_ (reshape_eq_row (m ((c : Thread nD τ).loc main_arg9)))
  rw [← W2_arg9 m ρ c]
  show StableHlo.after hostOps1 (W2 m ρ c) (Proc.devRef .tc main_v28) = _
  after_results <;> rfl

/-! ## After region 1 -/

/-- The result array holds the network of the ten arguments. -/
theorem W4_v29 (c : Dev nD) :
    W4 m ρ c (Proc.devRef .tc main_v29)
      = gin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 6).trans ((final1 (V3 m ρ) c).trans ?_)
  show linRow (hidRow (addf (W3 m ρ c (Proc.devRef .tc main_v16)) (W3 m ρ c (Proc.devRef .tc main_v26)))
      (W3 m ρ c (Proc.devRef .tc main_arg6)) (W3 m ρ c (Proc.devRef .tc main_v27)))
      (W3 m ρ c (Proc.devRef .tc main_arg8)) (W3 m ρ c (Proc.devRef .tc main_v28)) = _
  rw [W3_v16, W3_v26, W3_arg6, W3_v27, W3_arg8, W3_v28]
  rfl

end Cert.Gin

end
-- ==== Proof.lean ====
/-
  A two-layer graph network on 50000 nodes with 128 features and 600000 edges: the kernel program against the plain
  reference, over the extended reals.

  Both programs gather the source rows of the node array and add them into the destination rows (the same host
  operations on both sides), then apply  relu (relu ((h + nbr h) Wa + ba) Wb + bb)  for the first layer and
  relu ((h + nbr h) Wa + ba) Wb + bb  without the outer rectifier for the second. The kernel program does the dense part
  in a kernel over blocks of 5000 rows, narrowing to bf16 on the way into the matrix unit; the reference does it on the
  whole array. On the extended reals the narrowing is the identity and both matrix products are the same sum over
  k of left (row, k) · right (k, column), so block by block the kernel's result is the reference's. No law beyond
  "the same sum, term by term" joins the sides, so the finiteness of the inputs is never used.

  The frames of the two kernel programs are the generated ones; the reference's is its generated run with the result
  dropped. The ideal pass rewrote nothing, so the idealization claim is trivial. For the value claim both runs end with
  the result at the one function Cert.Gin.gin of the ten arguments: the kernel program's by following its four
  segments (Proof/KValue.lean over Proof/Region.lean and Proof/Body.lean), the reference's by unfolding
  (Proof/Spec.lean).
-/
import proofs.«168536_j54065048323041_1_alg».proof.Defs
import proofs.«168536_j54065048323041_1_alg».proof.Proof.Gen.Kernel
import proofs.«168536_j54065048323041_1_alg».proof.Proof.Gen.Kernel.Skeleton
import proofs.«168536_j54065048323041_1_alg».proof.Proof.Gen.Kernel.Launch
import proofs.«168536_j54065048323041_1_alg».proof.Proof.Gen.Kernel.Points
import proofs.«168536_j54065048323041_1_alg».proof.Proof.Gen.Kernel.Frame
import proofs.«168536_j54065048323041_1_alg».proof.Proof.Gen.KernelIdeal
import proofs.«168536_j54065048323041_1_alg».proof.Proof.Gen.KernelIdeal.Skeleton
import proofs.«168536_j54065048323041_1_alg».proof.Proof.Gen.KernelIdeal.Launch
import proofs.«168536_j54065048323041_1_alg».proof.Proof.Gen.KernelIdeal.Points
import proofs.«168536_j54065048323041_1_alg».proof.Proof.Gen.KernelIdeal.Frame
import proofs.«168536_j54065048323041_1_alg».proof.Proof.Gen.ReferenceIdeal
import proofs.«168536_j54065048323041_1_alg».proof.Proof.Gen.ReferenceIdeal.Run
import proofs.«168536_j54065048323041_1_alg».proof.Proof.Gen.Pre_finite_inputs
import proofs.«168536_j54065048323041_1_alg».proof.Proof.Spec
import proofs.«168536_j54065048323041_1_alg».proof.Proof.KRun
import proofs.«168536_j54065048323041_1_alg».proof.Proof.KValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the network of the ten arguments in the result array. -/
theorem algebraic : Cert.algebraic_KernelIdeal_ReferenceIdeal := by
  intro m ρ m' ρ' _ hagree
  refine ⟨fun c => Cert.Gin.gin (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.Gin.W4_v29 m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.Gin.ref_eq m' c, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
